-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S1000x4x256 : Shape := ⟨3, ![1000, 4, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x4x256 : S_.BroadcastsInDim S1000x4x256 (![] : Fin 0 → Fin S1000x4x256.rank)
  reducesTo_S1000x4x256_S_d0_1_2 : S1000x4x256.ReducesTo [0, 1, 2] S_
  bcast_S_S262144 : S_.BroadcastsInDim S262144 (![] : Fin 0 → Fin S262144.rank)
  reducesTo_S262144_S_d0 : S262144.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S262144x256 .f32) (main_arg1 : IVec S262144 32) (main_arg2 : FVec F S1000x4x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x4x256 .f32 := Host.absf main_arg2
  let main_cst_0 : FVec F S_ .f32 := constant S_ .f32 0x7F800000#32
  let main_v5 : FVec F S1000x4x256 .f32 := broadcastInDim S1000x4x256 ![] bcast_S_S1000x4x256 main_cst_0
  let main_v6 : IVec S1000x4x256 1 := cmpf .olt main_v4 main_v5
  let main_c_1 : IVec S_ 1 := constantI S_ 1 1#1
  let main_v7 : IVec S_ 1 := (fun x v => Host.reduce IntOp.andi x v reducesTo_S1000x4x256_S_d0_1_2 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_c_4 : IVec S_ 32 := constantI S_ 32 1000#32
  let main_v13 : IVec S262144 32 := broadcastInDim S262144 ![] bcast_S_S262144 main_c_4
  let main_v14 : IVec S262144 1 := cmpi .slt main_arg1 main_v13
  let main_c_5 : IVec S_ 1 := constantI S_ 1 1#1
  let main_v15 : IVec S_ 1 := (fun x v => Host.reduce IntOp.andi x v reducesTo_S262144_S_d0 h_S_) main_v14 main_c_5
  fn_part1 (F := F) main_v12 main_v15
-- ==== Kernel.lean ====
abbrev S262144x256 : Shape := ⟨2, ![262144, 256]⟩
abbrev S262144 : Shape := ⟨1, ![262144]⟩
abbrev S1000x4x256 : Shape := ⟨3, ![1000, 4, 256]⟩
abbrev S262144x1 : Shape := ⟨2, ![262144, 1]⟩
abbrev S1000x1024 : Shape := ⟨2, ![1000, 1024]⟩
abbrev S_ : Shape := ⟨0, ![]⟩
abbrev S1024x1024 : Shape := ⟨2, ![1024, 1024]⟩
abbrev S1024x256 : Shape := ⟨2, ![1024, 256]⟩
abbrev S1024x1 : Shape := ⟨2, ![1024, 1]⟩
abbrev S1024 : Shape := ⟨1, ![1024]⟩

abbrev nBuf : Space → Nat
  | .hbm => 10
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x4x256, .f32⟩
  | .hbm, ⟨3, _⟩ => ⟨S262144x1, .i32⟩
  | .hbm, ⟨4, _⟩ => ⟨S1000x1024, .f32⟩
  | .hbm, ⟨5, _⟩ => ⟨S_, .i32⟩
  | .hbm, ⟨6, _⟩ => ⟨S_, .f32⟩
  | .hbm, ⟨7, _⟩ => ⟨S1024x1024, .f32⟩
  | .hbm, ⟨8, _⟩ => ⟨S1024x1024, .bf16⟩
  | .hbm, ⟨9, _⟩ => ⟨S262144, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S1024x1024, .bf16⟩
  | .local _ .vmem, ⟨5, _⟩ => ⟨S1024, .f32⟩
  | .local _ .vmem, ⟨6, _⟩ => ⟨S1024, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144_S262144x1 : S262144.ShapeCasts S262144x1
  shapeCasts_S1000x4x256_S1000x1024 : S1000x4x256.ShapeCasts S1000x1024
  pads_S1000x1024_S1024x1024_0240_000 : S1000x1024.Pads (![0, 0] : Fin 2 → Nat) ![24, 0] ![0, 0] S1024x1024
  h_S_ : 0 < S_.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  slices_S1024x1024_o0_0_S1024x256 : S1024x1024.Slices ![0, 0] S1024x256
  reduces_S1024x256_S1024 : S1024x256.Reduces [1] S1024
  shapeCasts_S1024_S1024x1 : S1024.ShapeCasts S1024x1
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  shapeCasts_S1024x1_S1024 : S1024x1.ShapeCasts S1024
  inb_S1024_S1024_0 : ∀ a, (![0] : Fin 1 → Nat) a + S1024.size a ≤ S1024.size a
  h_S1024 : 0 < S1024.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S262144.size a
  hwx0_3 : ∀ i : grid0.Coords, EltTy.bits .f32 = 32 ∨ (Rect.block (s := S262144) S1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S1000x4x256 : Shape := ⟨3, ![1000, 4, 256]⟩
abbrev S_ : Shape := ⟨0, ![]⟩
abbrev S262144x1 : Shape := ⟨2, ![262144, 1]⟩
abbrev S262144x4x256 : Shape := ⟨3, ![262144, 4, 256]⟩
abbrev S262144x1x256 : Shape := ⟨3, ![262144, 1, 256]⟩
abbrev S262144x4 : Shape := ⟨2, ![262144, 4]⟩

abbrev nBuf : Space → Nat
  | .hbm => 23
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x4x256, .f32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x4x256, .f32⟩
  | .hbm, ⟨12, _⟩ => ⟨S262144x1x256, .f32⟩
  | .hbm, ⟨13, _⟩ => ⟨S262144x4x256, .f32⟩
  | .hbm, ⟨14, _⟩ => ⟨S262144x4x256, .f32⟩
  | .hbm, ⟨15, _⟩ => ⟨S262144x4x256, .f32⟩
  | .hbm, ⟨16, _⟩ => ⟨S_, .f32⟩
  | .hbm, ⟨17, _⟩ => ⟨S262144x4, .f32⟩
  | .hbm, ⟨18, _⟩ => ⟨S_, .f32⟩
  | .hbm, ⟨19, _⟩ => ⟨S262144x4, .f32⟩
  | .hbm, ⟨20, _⟩ => ⟨S262144x4, .f32⟩
  | .hbm, ⟨21, _⟩ => ⟨S_, .f32⟩
  | .hbm, ⟨22, _⟩ => ⟨S262144, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x256_S262144x1x256_0_2 : S262144x256.BroadcastsInDim S262144x1x256 (![0, 2] : Fin 2 → Fin S262144x1x256.rank)
  bcast_S262144x1x256_S262144x4x256_0_1_2 : S262144x1x256.BroadcastsInDim S262144x4x256 (![0, 1, 2] : Fin 3 → Fin S262144x4x256.rank)
  reducesTo_S262144x4x256_S262144x4_d2 : S262144x4x256.ReducesTo [2] S262144x4
  h_S_ : 0 < S_.numel
  bcast_S_S262144x4 : S_.BroadcastsInDim S262144x4 (![] : Fin 0 → Fin S262144x4.rank)
  reducesTo_S262144x4_S262144_d1 : S262144x4.ReducesTo [1] S262144
  gather_S1000x4x256_S262144x1_S262144x4x256_12_0_n_n_0_1_14256_wf : GatherDims.WF S1000x4x256 S262144x1 S262144x4x256 [1, 2] [0] [] [0] [] 1 ![1, 4, 256]

variable [Facts₀]

def gather_S1000x4x256_S262144x1_S262144x4x256_12_0_n_n_0_1_14256 : GatherDims S1000x4x256 S262144x1 S262144x4x256 where
  offsetDims := [1, 2]
  collapsedSliceDims := [0]
  operandBatchingDims := []
  startIndicesBatchingDims := []
  startIndexMap := [0]
  indexVectorDim := 1
  sliceSizes := ![1, 4, 256]
  wf := gather_S1000x4x256_S262144x1_S262144x4x256_12_0_n_n_0_1_14256_wf

class Facts : Prop extends Facts₀ where

variable [Facts]
-- ==== Proof.Domain.lean ====
/-
  What the precondition says of the class labels: every label word, read as a number, is below 1000.

  The precondition is a conjunction of four `all`s: both float arrays finite, every label `≥ 0` and every label `< 1000`,
  the two comparisons SIGNED. A conjunction that is `1` has both sides `1`; an `all` that is `1` is `1` at every index; and a
  32-bit word that is at least `0` and below `1000` as a signed number has its top bit clear, so it is the same number
  unsigned. Stated for any reading of the floats: the labels are integers.
-/
import proofs.«430308_j7765300871586_1_alg».proof.Pre_finite_inputs
import Idealize.ShloMosaic.Lib.ReduceAll
import Idealize.ShloMosaic.Lib.StableHlo.Predicate
import Idealize.ShloMosaic.Lib.ValueIdx

noncomputable section

namespace Cert.NearestCentroid.Domain

open Idealize.ShloMosaic Cert.Pre_finite_inputs

/-- A word in `[0, 1000)` signed is below 1000 unsigned. -/
theorem toNat_lt_of_signed_range (w : BitVec 32) (h0 : IntOp.cmpi .sge w 0#32 = 1#1) (h1 : IntOp.cmpi .slt w 1000#32 = 1#1) :
    w.toNat < 1000 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have k : (1000#32 : BitVec 32).toInt = 1000 := by decide
  rw [z] at h0
  rw [k] at h1
  have e := BitVec.toInt_eq_toNat_cond w
  have hlt := w.isLt
  by_cases c : 2 * w.toNat < 2 ^ 32
  · rw [if_pos c] at e; omega
  · rw [if_neg c] at e; omega

variable {F : FTy → Type} [FloatOps F] [Facts]

instance : Subsingleton S_.Idx := ⟨fun _ _ => funext fun d => d.elim0⟩

/-- THE LABELS' RANGE, from the precondition. -/
theorem label_lt (x0 : FVec F S262144x256 .f32) (x1 : IVec S262144 32) (x2 : FVec F S1000x4x256 .f32)
    (h : fn (F := F) x0 x1 x2 = fun _ => 1#1) (i : S262144.Idx) : (x1 i).toNat < 1000 := by
  have e := congrFun h ValueIdx.ix0
  unfold fn fn_part1 at e
  dsimp only at e
  obtain ⟨e12, e15⟩ := IntOp.andi_eq_one.1 e
  obtain ⟨-, e11⟩ := IntOp.andi_eq_one.1 e12
  have hge := Host.reduce_andi_all _ _ _ _ _ e11 i
  have hlt := Host.reduce_andi_all _ _ _ _ _ e15 i
  simp only [cmpi, broadcastInDim, constantI] at hge hlt
  exact toNat_lt_of_signed_range _ hge hlt

end Cert.NearestCentroid.Domain

end
-- ==== Proof.Spec.lean ====
/-
  The distance of a sample to its nearest class centroid, as ONE function of the three argument arrays.

  Sample `b` has a code row `codes[b, ·]` of 256 entries and a class label `pred[b]`; class `c` has four centroid
  rows `cents[c, k, ·]`, `k < 4`. The result at `b` is the least, over `k`, of the mean absolute difference
  `(∑ d, |codes[b, d] − cents[pred[b], k, d]|) / 256`. Everything is on the extended reals: `|x|` is `max x (−x)`, the
  quotient is the extended reals' division by the value of the word `256.0`, and the least of four is three `min`s.

  Two facts that both programs' readings end in are proved here, over no program:
  * a row of a matrix picked by a ONE-HOT row: `∑ j, [w = j] · f j = f w` for a label word `w` below the number of
    rows — a sum with one term that is `1 · f w` and all others `0 · f j`, which are `0` on the extended reals
    whatever `f j` is (no finiteness is used);
  * the fold of `min` from `+∞` over the four centroids is the three nested `min`s.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.NearestCentroid

open Idealize.ShloMosaic Idealize.ShloMosaic.ValueIdx

/-- The class a label word names among the 1000 classes: a word below 1000 names itself. -/
def classOf (w : BitVec 32) : Fin 1000 := ⟨w.toNat % 1000, Nat.mod_lt _ (by decide)⟩

theorem classOf_val {w : BitVec 32} (h : w.toNat < 1000) : (classOf w).val = w.toNat := Nat.mod_eq_of_lt h

/-- The mean absolute difference of two rows of 256 extended reals. -/
def meanAbsDiff (x y : Fin 256 → EReal) : EReal :=
  Ideal.div (∑ d : Fin 256, max (x d - y d) (-(x d - y d))) (Ideal.ofBits .f32 0x43800000#32)

/-- The least of four, as the kernel nests it. -/
def min4 (f : Fin 4 → EReal) : EReal := min (min (min (f 0) (f 1)) (f 2)) (f 3)

/-- THE RESULT at sample `b` with label word `w`: the least mean absolute difference between the sample's code row and
    the four centroid rows of the class `w` names. -/
def nearestAt (codes : (⟨2, ![262144, 256]⟩ : Shape).Idx → EReal) (cents : (⟨3, ![1000, 4, 256]⟩ : Shape).Idx → EReal)
    (w : BitVec 32) (b : Fin 262144) : EReal :=
  min4 fun k => meanAbsDiff (fun d => codes (ix2 b d)) (fun d => cents (ix3 (classOf w) k d))

/-- THE RESULT ARRAY: one entry per sample. -/
def nearest (codes : (⟨2, ![262144, 256]⟩ : Shape).Idx → EReal) (pred : (⟨1, ![262144]⟩ : Shape).Idx → BitVec 32)
    (cents : (⟨3, ![1000, 4, 256]⟩ : Shape).Idx → EReal) : (⟨1, ![262144]⟩ : Shape).Idx → EReal :=
  fun i => nearestAt codes cents (pred i) ⟨(i 0).val, (i 0).isLt⟩

/-! ## A row picked by a one-hot row -/

/-- The one-hot weight of column `j` for the label word `w`: the comparison bit widened to a word, read signed, as a real. -/
def hot (w : BitVec 32) (j : Nat) : EReal :=
  (((((IntOp.cmpi .eq w (BitVec.ofNat 32 j)).setWidth 32).toInt : ℤ) : ℝ) : EReal)

theorem hot_self (w : BitVec 32) : hot w w.toNat = 1 := by
  unfold hot
  have e : w = BitVec.ofNat 32 w.toNat := by simp
  rw [StableHlo.Predicate.cmpi_eq_iff.mpr e]
  simp

theorem hot_ne (w : BitVec 32) (j : Nat) (hj : j < 2 ^ 32) (h : w.toNat ≠ j) : hot w j = 0 := by
  unfold hot
  have hb : IntOp.cmpi .eq w (BitVec.ofNat 32 j) = 0#1 :=
    eq_zero_of_ne_one fun e => h (by
      have := StableHlo.Predicate.cmpi_eq_iff.mp e
      rw [this, BitVec.toNat_ofNat, Nat.mod_eq_of_lt hj])
  rw [hb]
  simp

/-- A ROW PICKED BY A ONE-HOT ROW: against the one-hot weights of a label word below `n`, the weighted sum of `n` extended
    reals is the one the word names. The other terms are `0 · f j = 0`, at the infinities too. -/
theorem sum_hot_mul {n : Nat} (hn : n ≤ 2 ^ 32) (w : BitVec 32) (hw : w.toNat < n) (f : Fin n → EReal) :
    ∑ j : Fin n, hot w j.val * f j = f ⟨w.toNat, hw⟩ := by
  rw [Finset.sum_eq_single (⟨w.toNat, hw⟩ : Fin n)]
  · rw [hot_self, one_mul]
  · intro j _ hj
    rw [hot_ne w j.val (lt_of_lt_of_le j.isLt hn) (fun e => hj (Fin.ext e.symm)), zero_mul]
  · intro h; exact absurd (Finset.mem_univ _) h

/-! ## The least of four -/

/-- The word `+∞` is the top of the extended reals. -/
theorem ofBits_inf : Ideal.ofBits .f32 0x7F800000#32 = (⊤ : EReal) := by simp [Ideal.ofBits, Ideal.ieee]

/-- The fold of `min` from `+∞` over four values is the three nested `min`s. -/
theorem fold_min_four (f : Fin 4 → EReal) :
    (Finset.univ : Finset (Fin 4)).fold min (Ideal.ofBits .f32 0x7F800000#32) f = min4 f := by
  rw [ofBits_inf, show (Finset.univ : Finset (Fin 4)) = insert 0 (insert 1 (insert 2 {3})) by decide]
  rw [Finset.fold_insert (by decide), Finset.fold_insert (by decide), Finset.fold_insert (by decide), Finset.fold_singleton]
  unfold min4
  rw [min_top_right, ← min_assoc, ← min_assoc]

end Cert.NearestCentroid

end
-- ==== Proof.RefValue.lean ====
/-
  The reference's result is the nearest-centroid distance of the specification, under the labels' range.

  The reference indexes the centroid table with the labels: a negative label is first moved up by 1000 (the wrap of a
  negative index), then the gather reads the table at the label, read signed and clamped into `[0, 999]`. For a label word
  below 1000 neither does anything: it is not negative, and it is its own clamp. The gathered rows are subtracted from the
  sample's code row, the absolute values summed over the 256 entries from `0`, divided by `256`, and the least of the four
  centroids' quotients taken by a fold of `min` from `+∞`.
-/
import proofs.«430308_j7765300871586_1_alg».proof.Proof.Gen.ReferenceIdeal.Read
import proofs.«430308_j7765300871586_1_alg».proof.Proof.Spec
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Cert.ReferenceIdeal.Read Cert.NearestCentroid
open Idealize.ShloMosaic Idealize.ShloMosaic.ValueIdx

/-- The gather's dimension numbers: the table's class axis collapsed and named by the one-component start index, its
    centroid and entry axes the result's offset axes. -/
abbrev gd : GatherDims S1000x4x256 S262144x1 S262144x4x256 := gather_S1000x4x256_S262144x1_S262144x4x256_12_0_n_n_0_1_14256

/-- THE GATHER READ AT `(b, k, d)`: the table at row `idx[b, 0]` read signed and clamped into `[0, 999]`, centroid `k`,
    entry `d`. Axis 0 of the table is collapsed and named by the start index; axes 1 and 2 are the result's offset axes. -/
theorem gather_row {α : Type} (x : S1000x4x256.Idx → α) (idx : IVec S262144x1 32) (b : Fin 262144) (k : Fin 4) (d : Fin 256)
    (c : Fin 1000) (hc : c.val = min (idx (ix2 b (0 : Fin 1))).toInt.toNat 999) :
    Host.gather gather_S1000x4x256_S262144x1_S262144x4x256_12_0_n_n_0_1_14256 x idx (ix3 b k d) = x (ix3 c k d) := by
  show x (gd.operandIdx (ix3 b k d) idx) = _
  refine congrArg x (funext fun a => Fin.ext ?_)
  match a with
  | ⟨0, _⟩ =>
    show gd.start (ix3 b k d) idx (0 : Fin 3) + gd.batchCoord (ix3 b k d) (0 : Fin 3) + gd.offCoord (ix3 b k d) (0 : Fin 3)
      = c.val
    rw [hc]
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gd.startIndexMap from List.mem_singleton.mpr rfl)]
    have hsi : gd.siIdx (ix3 b k d) ⟨List.idxOf (0 : Fin 3) gd.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gd.start (ix3 b k d) idx (1 : Fin 3) + gd.batchCoord (ix3 b k d) (1 : Fin 3) + gd.offCoord (ix3 b k d) (1 : Fin 3) = k.val
    rw [GatherDims.batchCoord_eq_zero _ _ _ List.not_mem_nil]
    unfold GatherDims.start
    rw [dif_neg (show ¬ (1 : Fin 3) ∈ gd.startIndexMap by decide)]
    simp only [Nat.add_zero, Nat.zero_add]
    rfl
  | ⟨2, _⟩ =>
    show gd.start (ix3 b k d) idx (2 : Fin 3) + gd.batchCoord (ix3 b k d) (2 : Fin 3) + gd.offCoord (ix3 b k d) (2 : Fin 3) = d.val
    rw [GatherDims.batchCoord_eq_zero _ _ _ List.not_mem_nil]
    unfold GatherDims.start
    rw [dif_neg (show ¬ (2 : Fin 3) ∈ gd.startIndexMap by decide)]
    simp only [Nat.add_zero, Nat.zero_add]
    rfl

/-- A label word below 1000 is not negative, so the reference's wrap of negative indices leaves it. -/
theorem wrapped_label (x1 : (⟨S262144, .i32⟩ : BufTy).Contents (Elt Ideal)) (hdom : ∀ i, (x1 i).toNat < 1000) (i : S262144.Idx) :
    val_main_v4 (F := Ideal) x1 i = x1 i := by
  rw [val_main_v4_apply, val_main_v1_apply, val_main_v0_apply, val_main_c_apply]
  have hw := hdom i
  have hn : IntOp.cmpi .slt (x1 i) 0#32 = 0#1 :=
    eq_zero_of_ne_one fun e => by
      have := (StableHlo.Predicate.slt_iff_toNat (a := x1 i) (b := 0#32) (by omega) (by decide)).mp e
      simp at this
  rw [hn, select_zero]

/-- The centroid rows the reference gathers for sample `b` are those of the class its label names. -/
theorem centroid_read (x1 : (⟨S262144, .i32⟩ : BufTy).Contents (Elt Ideal)) (x2 : (⟨S1000x4x256, .f32⟩ : BufTy).Contents (Elt Ideal))
    (hdom : ∀ i, (x1 i).toNat < 1000) (b : Fin 262144) (k : Fin 4) (d : Fin 256) :
    val_main_v6 (F := Ideal) x1 x2 (ix3 b k d) = x2 (ix3 (classOf (x1 (ix1 b))) k d) := by
  unfold val_main_v6
  refine gather_row x2 _ b k d (classOf (x1 (ix1 b))) ?_
  have hi : idx_main_v5 (ix2 b (0 : Fin 1)) = ix1 b := by funext a; match a with | ⟨0, _⟩ => rfl
  rw [val_main_v5_apply, wrapped_label x1 hdom, hi]
  have hw := hdom (ix1 b)
  show (x1 (ix1 b)).toNat % 1000 = min (x1 (ix1 b)).toInt.toNat 999
  rw [StableHlo.Predicate.toInt_eq_toNat_of_lt (by omega), Int.toNat_natCast, Nat.mod_eq_of_lt hw]
  omega

/-- The reference's quotient for sample `b` and centroid `k` is the mean absolute difference of the two rows. -/
theorem mean_read (x0 : (⟨S262144x256, .f32⟩ : BufTy).Contents (Elt Ideal)) (x1 : (⟨S262144, .i32⟩ : BufTy).Contents (Elt Ideal))
    (x2 : (⟨S1000x4x256, .f32⟩ : BufTy).Contents (Elt Ideal)) (hdom : ∀ i, (x1 i).toNat < 1000) (b : Fin 262144) (k : Fin 4) :
    val_main_v13 (F := Ideal) x0 x1 x2 (ix2 b k)
      = meanAbsDiff (fun d => x0 (ix2 b d)) (fun d => x2 (ix3 (classOf (x1 (ix1 b))) k d)) := by
  rw [val_main_v13_apply, val_main_v12_apply, val_main_cst_1_apply, val_main_v11_apply, val_main_cst_apply]
  unfold meanAbsDiff
  simp only [Ideal.hostDivf_def, Ideal.ofBits_def, Ideal.ofBits_zero_f32, zero_add]
  congr 1
  refine Finset.sum_congr rfl fun d _ => ?_
  have hi : idx_main_v11 (ix2 b k) d = ix3 b k d := by
    funext a; match a with | ⟨0, _⟩ => rfl | ⟨1, _⟩ => rfl | ⟨2, _⟩ => rfl
  rw [hi, val_main_v10_apply, val_main_v9_apply, val_main_v8_apply, val_main_v7_apply, centroid_read x1 x2 hdom]
  have hc : idx_main_v7 (idx_main_v8 (ix3 b k d)) = ix2 b d := by
    funext a; match a with | ⟨0, _⟩ => rfl | ⟨1, _⟩ => rfl
  rw [hc]
  rfl

/-- THE REFERENCE'S RESULT is the specification's, where every label is below 1000. -/
theorem result_eq (x0 : (⟨S262144x256, .f32⟩ : BufTy).Contents (Elt Ideal)) (x1 : (⟨S262144, .i32⟩ : BufTy).Contents (Elt Ideal))
    (x2 : (⟨S1000x4x256, .f32⟩ : BufTy).Contents (Elt Ideal)) (hdom : ∀ i, (x1 i).toNat < 1000) :
    val_main_v14 (F := Ideal) x0 x1 x2 = nearest x0 x1 x2 := by
  funext i
  obtain ⟨b, rfl⟩ : ∃ b : Fin 262144, i = ix1 b := ⟨i 0, eq_ix1 i⟩
  unfold val_main_v14
  rw [Host.reduce_eq_fold_single FloatOps.minimumf _ _ reducesTo_S262144x4_S262144_d1 (by decide) h_S_]
  have hl : ∀ k : Fin 4, (by decide : S262144x4.Reduces [1] S262144).lift (ix1 b) k = ix2 b k := fun k => by
    funext a; apply Fin.ext; match a with | ⟨0, _⟩ => rfl | ⟨1, _⟩ => rfl
  have hf : (val_main_v13 (F := Ideal) x0 x1 x2 ∘ (by decide : S262144x4.Reduces [1] S262144).lift (ix1 b))
      = fun k : Fin 4 => meanAbsDiff (fun d => x0 (ix2 b d)) (fun d => x2 (ix3 (classOf (x1 (ix1 b))) k d)) :=
    funext fun (k : Fin 4) => by
      show val_main_v13 (F := Ideal) x0 x1 x2 ((by decide : S262144x4.Reduces [1] S262144).lift (ix1 b) k) = _
      rw [hl k, mean_read x0 x1 x2 hdom]
  show _ = min4 fun k => meanAbsDiff (fun d => x0 (ix2 b d)) (fun d => x2 (ix3 (classOf (x1 (ix1 b))) k d))
  refine Eq.trans ?_ (fold_min_four _)
  exact congrArg (fun f => Finset.fold min (Ideal.ofBits .f32 0x7F800000#32) f (Finset.univ : Finset (Fin 4))) hf

end Cert.ReferenceIdeal.RefValue

end
-- ==== Proof.Payload.lean ====
/-
  What the kernel body computes for one row of its block, at the exact values.

  The body sees 1024 samples at a time: their code rows `x[r, ·]` (256 entries), their label words `l[r]`, and the whole
  centroid table `T`, 1024 rows (the 1000 classes and 24 rows of padding) of 1024 entries (a class's four centroids side by
  side). It builds the ONE-HOT matrix `[l[r] = j]`, multiplies it with the table — row `r` of the product is row `l[r]` of
  the table when `l[r] < 1024`: a sum with one nonzero weight —, and for each quarter `k` of that row takes the mean absolute
  difference with the code row, then the least of the four. So the body's result at row `r` is
  `min over k of (∑ d, |x[r, d] − T[l[r], 256 k + d]|) / 256`.
-/
import proofs.«430308_j7765300871586_1_alg».proof.Proof.Gen.KernelIdeal.Skeleton
import proofs.«430308_j7765300871586_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.NearestCentroid
open Idealize.ShloMosaic Idealize.ShloMosaic.ValueIdx

/-! ## The product's dimension numbers, axis by axis -/

/-- The product's dimension numbers: rows of the left operand against columns of the right, one contracted axis. -/
abbrev D : DotDims S1024x1024 S1024x1024 S1024x1024 := dot_S1024x1024_S1024x1024_S1024x1024_1_0_0_1_n_n

theorem lhs_D_0 (j : S1024x1024.Idx) (k : D.contr.Idx) : (D.lhsIdx j k 0 : ℕ) = j 0 := by
  simp [DotDims.lhsIdx, D, dot_S1024x1024_S1024x1024_S1024x1024_1_0_0_1_n_n]; rfl
theorem lhs_D_1 (j : S1024x1024.Idx) (k : D.contr.Idx) : (D.lhsIdx j k 1 : ℕ) = k ⟨0, by decide⟩ := by
  simp [DotDims.lhsIdx, D, dot_S1024x1024_S1024x1024_S1024x1024_1_0_0_1_n_n]; rfl
theorem rhs_D_0 (j : S1024x1024.Idx) (k : D.contr.Idx) : (D.rhsIdx j k 0 : ℕ) = k ⟨0, by decide⟩ := by
  simp [DotDims.rhsIdx, D, dot_S1024x1024_S1024x1024_S1024x1024_1_0_0_1_n_n]; rfl
theorem rhs_D_1 (j : S1024x1024.Idx) (k : D.contr.Idx) : (D.rhsIdx j k 1 : ℕ) = j 1 := by
  simp [DotDims.rhsIdx, D, dot_S1024x1024_S1024x1024_S1024x1024_1_0_0_1_n_n]; rfl

/-- The contraction index is its one coordinate, a column of the left operand and a row of the right. -/
abbrev contrD : D.contr.Idx ≃ Fin 1024 := contrEquiv1 D 1024 rfl rfl

theorem lhs_at (r c i : Fin 1024) : D.lhsIdx (ix2 r c) (contrD.symm i) = ix2 r i := by
  funext a; apply Fin.ext
  match a with
  | ⟨0, _⟩ => exact lhs_D_0 _ _
  | ⟨1, _⟩ => exact (lhs_D_1 _ _).trans (contrEquiv1_symm_val D 1024 rfl rfl i)

theorem rhs_at (r c i : Fin 1024) : D.rhsIdx (ix2 r c) (contrD.symm i) = ix2 i c := by
  funext a; apply Fin.ext
  match a with
  | ⟨0, _⟩ => exact (rhs_D_0 _ _).trans (contrEquiv1_symm_val D 1024 rfl rfl i)
  | ⟨1, _⟩ => exact rhs_D_1 _ _

/-! ## The one-hot matrix and the gathered rows -/

/-- The one-hot matrix of a block's labels, as the body builds it: the label column laid along the rows, compared with the
    column number, the bit widened, converted, and narrowed to the table's format. -/
def onehot (l : Vec Ideal S1024x1 .i32) : FVec Ideal S1024x1024 .bf16 :=
  truncf .bf16 (sitofp .f32 (extui 32 (cmpi .eq (broadcastTo S1024x1024 (shapeCast S1024x1 l shapeCasts_S1024x1_S1024x1)
    broadcasts_S1024x1_S1024x1024) (iota .tc S1024x1024 32 [1] iota_S1024x1024_d1_w32)) natLt_1_32)) bitsLt_bf16_f32

/-- Its entry at `(r, j)` is the one-hot weight of column `j` for row `r`'s label. -/
theorem onehot_apply (l : Vec Ideal S1024x1 .i32) (r j : Fin 1024) : onehot l (ix2 r j) = hot (l (ix2 r (0 : Fin 1))) j.val := by
  unfold onehot hot
  rw [shapeCast_self]
  show (((((IntOp.cmpi .eq (broadcastTo S1024x1024 l broadcasts_S1024x1_S1024x1024 (ix2 r j))
    (iota .tc S1024x1024 32 [1] iota_S1024x1024_d1_w32 (ix2 r j))).setWidth 32).toInt : ℤ) : ℝ) : EReal) = _
  rw [iota_single_apply, broadcastTo_apply l broadcasts_S1024x1_S1024x1024 (ix2 r j) (ix2 r (0 : Fin 1)) (fun a => by
    match a with
    | ⟨0, _⟩ => rfl
    | ⟨1, _⟩ => rfl)]

/-- The rows the body gathers: the one-hot matrix times the table, from zero. -/
def gathered (l : Vec Ideal S1024x1 .i32) (T : Vec Ideal S1024x1024 .bf16) : FVec Ideal S1024x1024 .f32 :=
  matmul D none (onehot l) (shapeCast S1024x1024 T shapeCasts_S1024x1024_S1024x1024 : FVec Ideal S1024x1024 .bf16)
    (constant S1024x1024 .f32 0x00000000#32)

/-- ROW `r` OF THE PRODUCT is row `l[r]` of the table, for a label below 1024. -/
theorem gathered_apply (l : Vec Ideal S1024x1 .i32) (T : Vec Ideal S1024x1024 .bf16) (r c : Fin 1024)
    (hw : (l (ix2 r (0 : Fin 1))).toNat < 1024) :
    gathered l T (ix2 r c) = T (ix2 (⟨(l (ix2 r (0 : Fin 1))).toNat, hw⟩ : Fin 1024) c) := by
  unfold gathered
  simp only [matmul]
  rw [Ideal.matmul_constant_zero_apply, ← Equiv.sum_comp contrD.symm, shapeCast_self]
  simp only [lhs_at, rhs_at, onehot_apply]
  exact sum_hot_mul (by decide) _ hw (fun i => T (ix2 i c))

/-! ## The four mean absolute differences and their least -/

/-- The body's quotient column for the quarter of the gathered rows that starts at column `off`: the code rows minus that
    quarter, absolute values, the lane sum over the 256 entries, laid as a column, divided by `256`. -/
def quarter (g : FVec Ideal S1024x1024 .f32) (x : FVec Ideal S1024x256 .f32) (off : Nat)
    (hs : S1024x1024.Slices ![0, off] S1024x256) : FVec Ideal S1024x1 .f32 :=
  divf (shapeCast S1024x1 (multiReduction .add [1] S1024 (absf (subf x (extractStridedSlice S1024x256 ![0, off] g hs)))
      0x00000000#32 reduces_S1024x256_S1024 (.inl rfl) rfl) shapeCasts_S1024_S1024x1)
    (broadcast S1024x1 (Scalar.ofBits .f32 0x43800000#32))

/-- At row `r` it is the mean absolute difference of the code row and the quarter's 256 entries of the gathered row. -/
theorem quarter_apply (g : FVec Ideal S1024x1024 .f32) (x : FVec Ideal S1024x256 .f32) (off : Nat)
    (hs : S1024x1024.Slices ![0, off] S1024x256) (r : Fin 1024) (col : Fin 256 → Fin 1024) (hcol : ∀ d, (col d).val = off + d.val) :
    quarter g x off hs (ix2 r (0 : Fin 1))
      = Ideal.div (∑ d : Fin 256, max (x (ix2 r d) - g (ix2 r (col d))) (-(x (ix2 r d) - g (ix2 r (col d)))))
          (Ideal.ofBits .f32 0x43800000#32) := by
  unfold quarter
  rw [divf_apply, broadcast_apply,
    shapeCast_apply _ shapeCasts_S1024_S1024x1 (ix2 r (0 : Fin 1)) (ix1 r) (by
      rw [Shape.rowMajor_val_one, Shape.rowMajor_val_two]; show r.val = r.val * 1 + 0; omega)]
  have hsum := Ideal.multiReduction_add_single (absf (subf x (extractStridedSlice S1024x256 ![0, off] g hs))) 0x00000000#32
    reduces_S1024x256_S1024 (.inl rfl) rfl (ix1 r)
  refine (congrArg (fun s => Ideal.div s (Ideal.ofBits .f32 0x43800000#32)) hsum).trans ?_
  refine congrArg (fun s => Ideal.div s (Ideal.ofBits .f32 0x43800000#32)) ?_
  refine Finset.sum_congr rfl fun (d : Fin 256) _ => ?_
  have hl : reduces_S1024x256_S1024.lift (ix1 r) d = ix2 r d := by
    funext a; apply Fin.ext; match a with | ⟨0, _⟩ => rfl | ⟨1, _⟩ => rfl
  rw [hl]
  show max (x (ix2 r d) - extractStridedSlice S1024x256 ![0, off] g hs (ix2 r d))
    (-(x (ix2 r d) - extractStridedSlice S1024x256 ![0, off] g hs (ix2 r d))) = _
  rw [slice2_axis1_apply off g hs r d (col d) (hcol d)]

/-- The body's arithmetic, regrouped: the four quarters' quotient columns, the least of them, laid back as a vector. -/
theorem pay_eq (l : Vec Ideal S1024x1 .i32) (T : Vec Ideal S1024x1024 .bf16) (x : Vec Ideal S1024x256 .f32) :
    k0_pay1 (F := Ideal) l T x
      = shapeCast S1024 (minimumf (minimumf (minimumf
          (quarter (gathered l T) x 0 slices_S1024x1024_o0_0_S1024x256)
          (quarter (gathered l T) x 256 slices_S1024x1024_o0_256_S1024x256))
          (quarter (gathered l T) x 512 slices_S1024x1024_o0_512_S1024x256))
          (quarter (gathered l T) x 768 slices_S1024x1024_o0_768_S1024x256)) shapeCasts_S1024x1_S1024 := rfl

/-- ONE ROW OF THE BODY'S RESULT. When row `r` of the code block is sample `b`'s code row, row `r`'s label is the word
    `w`, below 1000, and row `w` of the table holds class `w`'s four centroids side by side, the body's result at `r` is the
    specification's at `b`. -/
theorem block_row (x : Vec Ideal S1024x256 .f32) (l : Vec Ideal S1024x1 .i32) (T : Vec Ideal S1024x1024 .bf16)
    (codes : (⟨2, ![262144, 256]⟩ : Shape).Idx → EReal) (cents : (⟨3, ![1000, 4, 256]⟩ : Shape).Idx → EReal) (w : BitVec 32)
    (r : Fin 1024) (b : Fin 262144)
    (hx : ∀ d : Fin 256, x (ix2 r d) = codes (ix2 b d))
    (hl : l (ix2 r (0 : Fin 1)) = w) (hw : w.toNat < 1000)
    (hT : ∀ (k : Fin 4) (d : Fin 256) (i cc : Fin 1024), i.val = w.toNat → cc.val = 256 * k.val + d.val →
      T (ix2 i cc) = cents (ix3 (classOf w) k d)) :
    k0_pay1 (F := Ideal) l T x (ix1 r) = nearestAt codes cents w b := by
  rw [pay_eq, shapeCast_apply _ shapeCasts_S1024x1_S1024 (ix1 r) (ix2 r (0 : Fin 1)) (by
    rw [Shape.rowMajor_val_one, Shape.rowMajor_val_two]; show r.val * 1 + 0 = r.val; omega)]
  have hw' : (l (ix2 r (0 : Fin 1))).toNat < 1024 := by rw [hl]; omega
  have q : ∀ (k : Fin 4) (off : Nat) (hs : S1024x1024.Slices ![0, off] S1024x256) (hoff : off = 256 * k.val),
      quarter (gathered l T) x off hs (ix2 r (0 : Fin 1))
        = meanAbsDiff (fun d => codes (ix2 b d)) (fun d => cents (ix3 (classOf w) k d)) := by
    intro k off hs hoff
    have hk := k.isLt
    rw [quarter_apply (gathered l T) x off hs r (fun d => ⟨off + d.val, by have := d.isLt; omega⟩) (fun d => rfl)]
    unfold meanAbsDiff
    refine congrArg (fun s => Ideal.div s (Ideal.ofBits .f32 0x43800000#32)) ?_
    refine Finset.sum_congr rfl fun d _ => ?_
    rw [hx d, gathered_apply l T r _ hw', hT k d _ _ (congrArg BitVec.toNat hl) (by show off + d.val = _; omega)]
  show min (min (min (quarter (gathered l T) x 0 slices_S1024x1024_o0_0_S1024x256 (ix2 r (0 : Fin 1)))
      (quarter (gathered l T) x 256 slices_S1024x1024_o0_256_S1024x256 (ix2 r (0 : Fin 1))))
      (quarter (gathered l T) x 512 slices_S1024x1024_o0_512_S1024x256 (ix2 r (0 : Fin 1))))
      (quarter (gathered l T) x 768 slices_S1024x1024_o0_768_S1024x256 (ix2 r (0 : Fin 1))) = _
  rw [q 0 0 _ rfl, q 1 256 _ rfl, q 2 512 _ rfl, q 3 768 _ rfl]
  rfl

end Cert.KernelIdeal.Payload

end
-- ==== Proof.ArrayValue.lean ====
/-
  The kernel's result array, after the run, is the specification's function of the three argument arrays.

  The kernel walks the 262144 samples in 256 blocks of 1024. At block `t` it is handed rows `1024 t … 1024 t + 1023` of the
  codes, the same rows of the label column, and the whole centroid table, and writes entries `1024 t … 1024 t + 1023` of the
  result. Before the kernel runs, the labels are laid as a column (entry `(b, 0)` is label `b`), and the centroids are laid as a
  table of 1000 rows of 1024 (row `c`, column `256 k + d` is `cents[c, k, d]`), 24 rows of zeros appended, the format narrowed
  (the identity on the exact values). With the body's row computed over a block's rows and the table's rows, every block
  of the result is the specification's, and the blocks tile the result.
-/
import proofs.«430308_j7765300871586_1_alg».proof.Proof.Gen.KernelIdeal.Value
import proofs.«430308_j7765300871586_1_alg».proof.Proof.Payload
import Idealize.ShloMosaic.Lib.StableHlo.Run
import Idealize.ShloMosaic.Lib.KernelVsHost

set_option maxRecDepth 16384

noncomputable section

namespace Cert.KernelIdeal.ArrayValue

open Cert.KernelIdeal Cert.KernelIdeal.Gen Cert.KernelIdeal.Value Cert.KernelIdeal.Payload Cert.NearestCentroid
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays, and the two arrays laid out before the kernel runs -/

abbrev codes (c : Dev nD) : S262144x256.Idx → EReal := m ((c : Thread nD τ).loc main_arg0)
abbrev labels (c : Dev nD) : S262144.Idx → BitVec 32 := m ((c : Thread nD τ).loc main_arg1)
abbrev cents (c : Dev nD) : S1000x4x256.Idx → EReal := m ((c : Thread nD τ).loc main_arg2)

/-- The label column the kernel is handed is the labels, reshaped. -/
theorem labelCol_eq (c : Dev nD) :
    (V m c main_v0 : S262144x1.Idx → BitVec 32) = shapeCast S262144x1 (labels m c) shapeCasts_S262144_S262144x1 := by
  dsimp only [V]
  simp only [hostOps0, hostOps0_1, hostOps0_2, List.flatten_cons, List.flatten_nil, List.append_nil, List.cons_append, List.nil_append]
  after_results
  rfl

/-- Its entry `(b, 0)` is label `b`. -/
theorem labelCol_apply (c : Dev nD) (b : Fin 262144) :
    (V m c main_v0 : S262144x1.Idx → BitVec 32) (ix2 b (0 : Fin 1)) = labels m c (ix1 b) := by
  rw [labelCol_eq]
  exact shapeCast_apply _ _ _ _ (by rw [Shape.rowMajor_val_one, Shape.rowMajor_val_two]; show b.val = b.val * 1 + 0; omega)

/-- The table the kernel is handed: the centroids reshaped to one row a class, padded below with zeros, narrowed. -/
theorem table_eq (c : Dev nD) :
    (V m c main_v3 : S1024x1024.Idx → EReal)
      = truncf .bf16 (pad S1024x1024 ![0, 0] ![24, 0] ![0, 0]
          (shapeCast S1000x1024 (cents m c) shapeCasts_S1000x4x256_S1000x1024 : FVec Ideal S1000x1024 .f32)
          (sitofp .f32 (constantI S_ 32 0#32) : FVec Ideal S_ .f32) pads_S1000x1024_S1024x1024_0240_000 h_S_) bitsLt_bf16_f32 := by
  dsimp only [V]
  simp only [hostOps0, hostOps0_1, hostOps0_2, List.flatten_cons, List.flatten_nil, List.append_nil, List.cons_append, List.nil_append]
  after_results
  rfl

/-- Row `cl`, column `256 k + d` of the table is `cents[cl, k, d]`. -/
theorem table_apply (c : Dev nD) (cl : Fin 1000) (k : Fin 4) (d : Fin 256) (i cc : Fin 1024) (hi : i.val = cl.val)
    (hcc : cc.val = 256 * k.val + d.val) : (V m c main_v3 : S1024x1024.Idx → EReal) (ix2 i cc) = cents m c (ix3 cl k d) := by
  rw [table_eq]
  show pad S1024x1024 ![0, 0] ![24, 0] ![0, 0]
    (shapeCast S1000x1024 (cents m c) shapeCasts_S1000x4x256_S1000x1024 : FVec Ideal S1000x1024 .f32)
    (sitofp .f32 (constantI S_ 32 0#32) : FVec Ideal S_ .f32) pads_S1000x1024_S1024x1024_0240_000 h_S_ (ix2 i cc) = _
  rw [pad_apply_of_inside ![0, 0] ![24, 0] ![0, 0] _ _ pads_S1000x1024_S1024x1024_0240_000 h_S_ (ix2 i cc) (ix2 cl cc) (fun a => by
    match a with
    | ⟨0, _⟩ => show i.val = 0 + cl.val * (0 + 1); omega
    | ⟨1, _⟩ => show cc.val = 0 + cc.val * (0 + 1); omega)]
  have hk := k.isLt
  have hd := d.isLt
  exact shapeCast_apply _ _ _ _ (by
    rw [Shape.rowMajor_val_two, Shape.rowMajor_val_three]
    show (cl.val * 4 + k.val) * 256 + d.val = cl.val * 1024 + cc.val
    omega)

/-! ## The blocks at a grid point -/

/-- The blocks the body is handed at point `t`, at their literal shapes. -/
abbrev xblk (c : Dev nD) (t : Fin cfg0.N) : Vec Ideal S1024x256 .f32 := iblk m c 0 t
abbrev lblk (c : Dev nD) (t : Fin cfg0.N) : Vec Ideal S1024x1 .i32 := iblk m c 1 t
abbrev tblk (c : Dev nD) (t : Fin cfg0.N) : Vec Ideal S1024x1024 .bf16 := iblk m c 2 t

/-- The printed index maps over the 256 points: the codes', the label column's and the result's block index is the point's
    number, the table's is always the first block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

theorem hz1 : (![0] : Fin 1 → Nat) = fun _ => 0 := funext fun a => by fin_cases a; rfl
theorem hz2 : (![0, 0] : Fin 2 → Nat) = fun _ => 0 := funext fun a => by fin_cases a <;> rfl

/-- Sample number of row `r` of block `t`. -/
abbrev sample (t : Fin cfg0.N) (r : Fin 1024) : Fin 262144 :=
  ⟨t.val * 1024 + r.val, by have := t.isLt; have e : cfg0.N = 256 := N_0; have := r.isLt; omega⟩

/-- Row `r` of the code block at `t` is the code row of sample `1024 t + r`. -/
theorem xblk_apply (c : Dev nD) (t : Fin cfg0.N) (r : Fin 1024) (d : Fin 256) :
    xblk m c t (ix2 r d) = codes m c (ix2 (sample t r) d) := by
  obtain ⟨e00, e01, -⟩ := idx_facts t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 1024 + 1 * r.val = t.val * 1024 + r.val; omega
  | ⟨1, _⟩ => show win0_0.index t (1 : Fin 2) * 256 + 1 * d.val = d.val; omega

/-- Row `r` of the label block at `t` is the label of sample `1024 t + r`. -/
theorem lblk_apply (c : Dev nD) (t : Fin cfg0.N) (r : Fin 1024) :
    lblk m c t (ix2 r (0 : Fin 1)) = labels m c (ix1 (sample t r)) := by
  obtain ⟨-, -, e10, e11, -⟩ := idx_facts t
  show (V m c main_v0 : S262144x1.Idx → BitVec 32) (((cfg0.win 1).blk t).view.emb (ix2 r (0 : Fin 1))) = _
  rw [← labelCol_apply m c (sample t r)]
  refine congrArg (V m c main_v0 : S262144x1.Idx → BitVec 32) (funext fun a => Fin.ext ?_)
  match a with
  | ⟨0, _⟩ => show win0_1.index t (0 : Fin 2) * 1024 + 1 * r.val = t.val * 1024 + r.val; omega
  | ⟨1, _⟩ => show win0_1.index t (1 : Fin 2) * 1 + 1 * 0 = 0; omega

/-- The table block at every point is the whole table. -/
theorem tblk_apply (c : Dev nD) (t : Fin cfg0.N) (i cc : Fin 1024) :
    tblk m c t (ix2 i cc) = (V m c main_v3 : S1024x1024.Idx → EReal) (ix2 i cc) := by
  obtain ⟨-, -, -, -, e20, e21, -⟩ := idx_facts t
  show (V m c main_v3 : S1024x1024.Idx → EReal) (((cfg0.win 2).blk t).view.emb (ix2 i cc)) = _
  refine congrArg (V m c main_v3 : S1024x1024.Idx → EReal) (funext fun a => Fin.ext ?_)
  match a with
  | ⟨0, _⟩ => show win0_2.index t (0 : Fin 2) * 1024 + 1 * i.val = i.val; omega
  | ⟨1, _⟩ => show win0_2.index t (1 : Fin 2) * 1024 + 1 * cc.val = cc.val; omega

/-! ## What a point writes back, the cover, the array -/

/-- WHAT POINT `t` WRITES BACK is block `t` of the specification's result array. -/
theorem flushed_eq (c : Dev nD) (hdom : ∀ i, (labels m c i).toNat < 1000) (t : Fin cfg0.N) :
    (dats m 0 c).flushed 3 t
      = ((cfg0.win 3).blk t).view.read (Elt Ideal) (nearest (codes m c) (labels m c) (cents m c)) := by
  rw [flushed3]
  unfold out0_3
  rw [View.canon_unit_zero hz1]
  simp only [View.ld_unit_zero (S := S1024x1) hz2, View.ld_unit_zero (S := S1024x1024) hz2, View.ld_unit_zero (S := S1024x256) hz2]
  funext j
  obtain ⟨r, rfl⟩ : ∃ r : Fin 1024, j = ix1 r := ⟨j 0, eq_ix1 j⟩
  obtain ⟨-, -, -, -, -, -, e3⟩ := idx_facts t
  have hemb : ((cfg0.win 3).blk t).view.emb (ix1 r) = ix1 (sample t r) := by
    funext a; apply Fin.ext
    match a with
    | ⟨0, _⟩ => show win0_3.index t (0 : Fin 1) * 1024 + 1 * r.val = t.val * 1024 + r.val; omega
  show k0_pay1 (F := Ideal) (lblk m c t) (tblk m c t) (xblk m c t) (ix1 r)
    = nearest (codes m c) (labels m c) (cents m c) (((cfg0.win 3).blk t).view.emb (ix1 r))
  rw [hemb]
  show _ = nearestAt (codes m c) (cents m c) (labels m c (ix1 (sample t r))) (sample t r)
  have hw := hdom (ix1 (sample t r))
  exact block_row (xblk m c t) (lblk m c t) (tblk m c t) (codes m c) (cents m c) (labels m c (ix1 (sample t r))) r (sample t r)
    (fun d => xblk_apply m c t r d) (lblk_apply m c t r) hw
    (fun k d i cc hi hcc => (tblk_apply m c t i cc).trans
      (table_apply m c (classOf (labels m c (ix1 (sample t r)))) k d i cc (hi.trans (classOf_val hw).symm) hcc))

/-- An index of the result is in point `t`'s block iff it is in the block's range. -/
theorem mem_blk (t : Fin cfg0.N) (i : S262144.Idx) :
    i ∈ ((cfg0.win 3).blk t).view.set ↔ ∀ a : Fin 1, win0_3.index t a * S1024.size a ≤ (i a).val
      ∧ (i a).val < win0_3.index t a * S1024.size a + S1024.size a := by
  show i ∈ ((View.whole main_v4).slice (win0_3.rect t)).set ↔ _
  rw [View.set_slice_whole, Rect.mem_set_unit]
  exact Iff.rfl

/-- THE BLOCKS TILE THE RESULT: entry `i` is in the block of point `i / 1024`. -/
theorem cover (i : S262144.Idx) : ∃ t : Fin cfg0.N, (cfg0.win 3).flush t = true ∧ i ∈ ((cfg0.win 3).blk t).view.set := by
  have hi : (i 0).val < 262144 := (i 0).isLt
  have eN : cfg0.N = 256 := N_0
  let t : Fin cfg0.N := ⟨(i 0).val / 1024, by omega⟩
  obtain ⟨-, -, -, -, -, -, e3⟩ := idx_facts t
  refine ⟨t, flush0_3 t, ?_⟩
  rw [mem_blk]
  intro a
  match a with
  | ⟨0, _⟩ =>
    show win0_3.index t (0 : Fin 1) * 1024 ≤ (i 0).val ∧ (i 0).val < win0_3.index t (0 : Fin 1) * 1024 + 1024
    have : t.val = (i 0).val / 1024 := rfl
    omega

/-- THE RESULT ARRAY after the run is the specification's function of the three arguments. -/
theorem final (c : Dev nD) (hdom : ∀ i, (labels m c i).toNat < 1000) :
    (dats m 0 c).arrAt 3 cfg0.N = nearest (codes m c) (labels m c) (cents m c) :=
  (dats m 0 c).arrAt_eq_of_cover 3 (nearest (codes m c) (labels m c) (cents m c)) (fun t _ => flushed_eq m c hdom t) cover

/-- THE RUN, READ: every weakly fair execution ends with the result array at the specification's function of the
    arguments and the arguments unchanged, when every label is below 1000. -/
theorem run (hdom : ∀ (c : Dev nD) i, (labels m c i).toNat < 1000) :
    θ_run defs (onTc (τ := τ) (main (F := Ideal))) ⟨m, fun _ => 0, ρ⟩ fun r => ∀ c : Dev nD,
      r.2.mem ((c : Thread nD τ).loc main_v4) = nearest (codes m c) (labels m c) (cents m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hdom c)), (h c).2⟩) (run_blocks m ρ)

end Cert.KernelIdeal.ArrayValue

end
-- ==== Proof.lean ====
/- The nearest-centroid distance kernel against its array-language reference, over the extended reals.

   Both programs take the code rows `codes[b, ·]` of 262144 samples, a class label `pred[b]` for each, and four centroid
   rows `cents[c, k, ·]` for each of 1000 classes, and return for every sample the least, over the four centroids of its
   class, of the mean absolute difference `(∑ d, |codes[b, d] − cents[pred[b], k, d]|) / 256`.

   The reference indexes the centroid array with the labels. The kernel instead multiplies a one-hot matrix of the labels
   with the centroid table (padded with zero rows to 1024), 1024 samples at a time: row `r` of the product is the table's row
   `pred[r]`, the other terms of the sum being `0 · x = 0` for every extended real `x`. The two agree where every label is a
   class number, `0 ≤ pred[b] < 1000`, which the precondition states: outside it the reference's index leaves the array
   (it wraps a negative label and clamps a large one) while the kernel's one-hot row selects a zero row or nothing.
   Under it (Domain) the reference's result (RefValue) and the kernel's result array, assembled from what each of the 256
   grid points writes back (Payload, ArrayValue), are one function of the arguments (Spec). No finiteness is used: the
   sums, differences, absolute values, the quotient by 256 and the minima are the same operations on both sides, taken in
   the same order within each sample.

   The frames of the two kernel programs are the generated ones; the reference's is its generated run with the result
   dropped; the idealization rewrote nothing, so `preserves` is trivial. -/
import proofs.«430308_j7765300871586_1_alg».proof.Defs
import proofs.«430308_j7765300871586_1_alg».proof.Proof.Gen.Kernel
import proofs.«430308_j7765300871586_1_alg».proof.Proof.Gen.Kernel.Skeleton
import proofs.«430308_j7765300871586_1_alg».proof.Proof.Gen.Kernel.Launch
import proofs.«430308_j7765300871586_1_alg».proof.Proof.Gen.Kernel.Points
import proofs.«430308_j7765300871586_1_alg».proof.Proof.Gen.Kernel.Frame
import proofs.«430308_j7765300871586_1_alg».proof.Proof.Gen.KernelIdeal
import proofs.«430308_j7765300871586_1_alg».proof.Proof.Gen.KernelIdeal.Skeleton
import proofs.«430308_j7765300871586_1_alg».proof.Proof.Gen.KernelIdeal.Launch
import proofs.«430308_j7765300871586_1_alg».proof.Proof.Gen.KernelIdeal.Points
import proofs.«430308_j7765300871586_1_alg».proof.Proof.Gen.KernelIdeal.Frame
import proofs.«430308_j7765300871586_1_alg».proof.Proof.Gen.ReferenceIdeal
import proofs.«430308_j7765300871586_1_alg».proof.Proof.Gen.Pre_finite_inputs
import proofs.«430308_j7765300871586_1_alg».proof.Proof.Gen.KernelIdeal.Value
import proofs.«430308_j7765300871586_1_alg».proof.Proof.Gen.ReferenceIdeal.Run
import proofs.«430308_j7765300871586_1_alg».proof.Proof.Gen.ReferenceIdeal.Read
import proofs.«430308_j7765300871586_1_alg».proof.Proof.Domain
import proofs.«430308_j7765300871586_1_alg».proof.Proof.RefValue
import proofs.«430308_j7765300871586_1_alg».proof.Proof.ArrayValue
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments, with every label a class number, the kernel's result array and the
    reference's are both the specification's nearest-centroid distances. -/
theorem algebraic : Cert.algebraic_KernelIdeal_ReferenceIdeal := by
  intro m ρ m' ρ' hpre hagree
  have hdom : ∀ (c : Dev Cert.KernelIdeal.nD) i, (Cert.KernelIdeal.ArrayValue.labels m c i).toNat < 1000 :=
    fun c i => Cert.NearestCentroid.Domain.label_lt _ _ _ (hpre c) i
  refine ⟨fun c => Cert.NearestCentroid.nearest (Cert.KernelIdeal.ArrayValue.codes m c) (Cert.KernelIdeal.ArrayValue.labels m c)
    (Cert.KernelIdeal.ArrayValue.cents m c), Cert.KernelIdeal.ArrayValue.run m ρ hdom, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, (hagree c).1, (hagree c).2.1, (hagree c).2.2]
  exact Cert.ReferenceIdeal.RefValue.result_eq _ _ _ (hdom c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
